-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S50000x128 .f32) (main_arg1 : IVec S2x800000 32) (main_arg2 : FVec F S40x128 .f32) (main_arg3 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S40x128 .f32 := Host.absf main_arg2
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x40 : Shape := ⟨2, ![1, 40]⟩
abbrev S50000x40 : Shape := ⟨2, ![50000, 40]⟩
abbrev S5000x128 : Shape := ⟨2, ![5000, 128]⟩
abbrev S5000x40 : Shape := ⟨2, ![5000, 40]⟩
abbrev S128x40 : Shape := ⟨2, ![128, 40]⟩
abbrev S5000 : Shape := ⟨1, ![5000]⟩
abbrev S5000x1 : Shape := ⟨2, ![5000, 1]⟩

abbrev nBuf : Space → Nat
  | .hbm => 93
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S40x128, .f32⟩
  | .hbm, ⟨3, _⟩ => ⟨S40, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S850000x1, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x40, .f32⟩
  | .hbm, ⟨92, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S40x128, .f32⟩
  | .local _ .vmem, ⟨3, _⟩ => ⟨S1x40, .f32⟩
  | .local _ .vmem, ⟨4, _⟩ => ⟨S5000x40, .f32⟩
  | .local _ .vmem, ⟨5, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_v58 : Ref sig .tc := ⟨.hbm, 77, rfl⟩
abbrev main_v59 : Ref sig .tc := ⟨.hbm, 78, rfl⟩
abbrev main_c_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x128.size a ≤ S40x128.size a
  hwx0_1 : ∀ i : grid0.Coords, EltTy.bits .f32 = 32 ∨ (Rect.block (s := S40x128) S40x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x40.size a ≤ S50000x40.size a
  hwx0_3 : ∀ i : grid0.Coords, EltTy.bits .f32 = 32 ∨ (Rect.block (s := S50000x40) S5000x40.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v69) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v71) S5000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x40 : Shape := ⟨2, ![128, 40]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S40x128, .f32⟩
  | .hbm, ⟨3, _⟩ => ⟨S40, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S850000x1, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S128x40, .f32⟩
  | .hbm, ⟨92, _⟩ => ⟨S50000x40, .f32⟩
  | .hbm, ⟨93, _⟩ => ⟨S1x40, .f32⟩
  | .hbm, ⟨94, _⟩ => ⟨S50000x40, .f32⟩
  | .hbm, ⟨95, _⟩ => ⟨S50000x40, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S50000x1, .f32⟩
  | .hbm, ⟨102, _⟩ => ⟨S50000x40, .f32⟩
  | .hbm, ⟨103, _⟩ => ⟨S50000x40, .f32⟩
  | .hbm, ⟨104, _⟩ => ⟨S50000x40, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S50000x1, .f32⟩
  | .hbm, ⟨109, _⟩ => ⟨S50000x40, .f32⟩
  | .hbm, ⟨110, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_v58 : Ref sig .tc := ⟨.hbm, 77, rfl⟩
abbrev main_v59 : Ref sig .tc := ⟨.hbm, 78, rfl⟩
abbrev main_c_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_call1_cst_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_cst_1 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LogSoftmaxSpec.lean ====
/-
  The mathematics both programs compute after the graph propagation, stated once over plain index functions.

  Given propagated node features h : [n, 128], class weights W : [40, 128] and a bias b : [40], the logits of
  node r are  z r j = (∑ k, h r k * W j k) + b j.  A row of 40 logits is turned into log-probabilities by the
  shifted form of log-softmax:  with M the maximum of the row (a fold of max that starts from −∞),
  out j = (z j − M) − log (∑ q, exp (z q − M)).  Everything is read on the extended reals, operation by
  operation; nothing here rearranges a sum or cancels a term, so no finiteness is needed.
-/
import Idealize.ShloMosaic.PureOps.Ideal
import Idealize.ShloMosaic.PureOps.Ideal.Laws
import Idealize.ShloMosaic.Lib.ValueIdx

noncomputable section

namespace Cert.NodeClassifier

open Idealize.ShloMosaic Idealize.ShloMosaic.ValueIdx

/-- The f32 pattern of −∞, the value a row maximum starts from. -/
abbrev negInf : EReal := Ideal.ofBits .f32 0xFF800000#32

/-- −∞ is the bottom of the extended reals: taking the maximum with it changes nothing. -/
theorem max_negInf (y : EReal) : max negInf y = y := by
  show max (Ideal.ofBits .f32 0xFF800000#32) y = y
  simp [Ideal.ofBits, Ideal.ieee]

/-- The maximum of a row of 40 entries, folded from −∞. -/
def rowMax (z : Fin 40 → EReal) : EReal := (Finset.univ : Finset (Fin 40)).fold max negInf z

/-- Log-softmax of a row of 40 logits in its shifted form: subtract the row maximum, then subtract the logarithm of
    the sum of the exponentials of the shifted row. -/
def logSoftmaxRow (z : Fin 40 → EReal) (j : Fin 40) : EReal :=
  (z j - rowMax z) - Ideal.log (∑ q : Fin 40, Ideal.exp (z q - rowMax z))

/-- The logit of class j for row r: the inner product of the row of h with row j of W, plus the bias. -/
def logit {n : Nat} (h : (⟨2, ![n, 128]⟩ : Shape).Idx → EReal) (W : (⟨2, ![40, 128]⟩ : Shape).Idx → EReal)
    (b : Fin 40 → EReal) (r : Fin n) (j : Fin 40) : EReal :=
  (∑ k : Fin 128, h (ix2 r k) * W (ix2 j k)) + b j

/-- The whole result: at (r, j) the log-probability of class j for node r. -/
def classLogProbs {n : Nat} (h : (⟨2, ![n, 128]⟩ : Shape).Idx → EReal) (W : (⟨2, ![40, 128]⟩ : Shape).Idx → EReal)
    (b : Fin 40 → EReal) : (⟨2, ![n, 40]⟩ : Shape).Idx → EReal :=
  fun i => logSoftmaxRow (logit h W b (i 0)) (i 1)

/-- The logits of a row depend only on that row of h: a block of rows of a taller array has the taller array's logits. -/
theorem logit_congr {n n' : Nat} (h : (⟨2, ![n, 128]⟩ : Shape).Idx → EReal) (h' : (⟨2, ![n', 128]⟩ : Shape).Idx → EReal)
    (W : (⟨2, ![40, 128]⟩ : Shape).Idx → EReal) (b : Fin 40 → EReal) (r : Fin n) (r' : Fin n')
    (e : ∀ k : Fin 128, h (ix2 r k) = h' (ix2 r' k)) : logit h W b r = logit h' W b r' := by
  funext j
  unfold logit
  exact congrArg (· + b j) (Finset.sum_congr rfl fun k _ => by rw [e k])

end Cert.NodeClassifier

end
-- ==== Proof.LibColumnLayout.lean ====
/-
  Layout steps around a per-row quantity of a matrix: the three forms a reduction along the second axis with the
  reduced axis kept ('keepdims') meets. A row reduction of an [a, b] matrix gives a vector of length a; it is seen as
  a column [a, 1] and broadcast back along the rows to [a, b]. Read at an entry (p, q) the result is the reduced
  vector at p; and the reduced index p with a coordinate k of the dropped axis put back is the entry (p, k).
-/
import Idealize.ShloMosaic.Lib.ValueIdx
import Idealize.ShloMosaic.Lib.Pipeline.Value
import Idealize.ShloMosaic.PureOps.Reduce

noncomputable section

namespace Cert.ColumnLayout

open Idealize.ShloMosaic Idealize.ShloMosaic.ValueIdx

variable {α : Type}

/-- Reducing a matrix along its second axis: the reduced index p with coordinate k put back is the entry (p, k). -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector of length a seen as a column [a, 1] reads, at (p, 0), the vector at p. -/
theorem colCast_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column [a, 1] broadcast along the rows to [a, b] reads, at (p, q), the column at p. -/
theorem colBroadcast_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.ColumnLayout

end
-- ==== Proof.KernelRows.lean ====
/-
  What the kernel body computes for one block of 5000 rows, read at an entry (p, q).

  The body's one stored value is a composition of: a matrix product of the block of features with the transposed
  class weights (a sum over the 128 feature coordinates), plus the bias row broadcast down the rows — the logits —
  and then, row by row, the shifted log-softmax: the row maximum (a fold of max from −∞ over the 40 classes) is
  subtracted, the exponentials of the shifted row are summed, and the logarithm of that sum is subtracted.
  Read at (p, q) this is 'logSoftmaxRow' of the row of logits of row p, at class q. The narrowing of the two matrix
  operands to a shorter float format changes nothing on the extended reals.
-/
import proofs.«169366_j16020228014933_1_alg».proof.Proof.Gen.KernelIdeal.Skeleton
import proofs.«169366_j16020228014933_1_alg».proof.Proof.LogSoftmaxSpec
import proofs.«169366_j16020228014933_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.NodeClassifier.KernelRows

open Cert.KernelIdeal Cert.KernelIdeal.Gen Idealize.ShloMosaic Idealize.ShloMosaic.ValueIdx Cert.NodeClassifier Cert.ColumnLayout

/-! ## The matrix product of a block of rows with the transposed weights -/

theorem lhs_axis0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_axis1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs_axis0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_axis1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product of a [5000, 128] block with a [128, 40] matrix into a zero accumulator, at (p, j): the sum over the 128
    shared coordinates of the products. -/
theorem matmul_block_apply (x : FVec Ideal S5000x128 .bf16) (w : FVec Ideal S128x40 .bf16) (p : Fin 5000) (j : Fin 40) :
    matmul dot_S5000x128_S128x40_S5000x40_1_0_0_1_n_n none x w (constant (F := Ideal) S5000x40 .f32 0x00000000#32) (ix2 p j)
      = ∑ k : Fin 128, x (ix2 p k) * w (ix2 k j) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p j) ((contrEquiv1 dot_S5000x128_S128x40_S5000x40_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x40_S5000x40_1_0_0_1_n_n.rhsIdx (ix2 p j) ((contrEquiv1 dot_S5000x128_S128x40_S5000x40_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## The logits of a block -/

/-- The body's logits: block of features times transposed weights, plus the bias row broadcast down the rows. -/
def kLogits (x0 : Vec Ideal S5000x128 .f32) (x1 : Vec Ideal S40x128 .f32) (x2 : Vec Ideal S1x40 .f32) : FVec Ideal S5000x40 .f32 :=
  addf (matmul dot_S5000x128_S128x40_S5000x40_1_0_0_1_n_n none
      (truncf .bf16 (shapeCast S5000x128 x0 shapeCasts_S5000x128_S5000x128) bitsLt_bf16_f32)
      (transpose S128x40 [1, 0] (truncf .bf16 x1 bitsLt_bf16_f32) transposes_S40x128_p1_0_S128x40)
      (constant (F := Ideal) S5000x40 .f32 0x00000000#32))
    (broadcastTo S5000x40 (shapeCast S1x40 (shapeCast S1x40 x2 shapeCasts_S1x40_S1x40) shapeCasts_S1x40_S1x40) broadcasts_S1x40_S5000x40)

/-- At (p, j) they are the inner product of row p of the block with row j of the weights, plus the bias at j. -/
theorem kLogits_apply (x0 : Vec Ideal S5000x128 .f32) (x1 : Vec Ideal S40x128 .f32) (x2 : Vec Ideal S1x40 .f32)
    (p : Fin 5000) (j : Fin 40) :
    kLogits x0 x1 x2 (ix2 p j) = logit x0 x1 (fun j => x2 (ix2 (0 : Fin 1) j)) p j := by
  unfold kLogits logit
  rw [addf_apply]
  refine congrArg₂ (· + ·) ?_ ?_
  · refine (matmul_block_apply _ _ p j).trans (Finset.sum_congr rfl fun k _ => ?_)
    refine congrArg₂ (· * ·) ?_ ?_
    · rw [truncf_apply, shapeCast_self]
    · exact (transpose_ix2_apply _ transposes_S40x128_p1_0_S128x40 k j).trans (truncf_apply x1 bitsLt_bf16_f32 _)
  · rw [shapeCast_self, shapeCast_self]
    exact broadcastTo_1b_ab_apply x2 broadcasts_S1x40_S5000x40 p j

/-! ## Log-softmax of the rows of a block -/

/-- The body's steps after the logits: row maximum, shift, exponentials, row sum, logarithm, second shift. -/
def kTail (z : FVec Ideal S5000x40 .f32) : FVec Ideal S5000x40 .f32 :=
  subf (subf z (broadcastTo S5000x40 (shapeCast S5000x1 (multiReduction .maximumf [1] S5000 z 0xFF800000#32 reduces_S5000x40_S5000 (.inl rfl) rfl) shapeCasts_S5000_S5000x1) broadcasts_S5000x1_S5000x40))
    (broadcastTo S5000x40 (log (shapeCast S5000x1 (multiReduction .add [1] S5000 (exp (subf z (broadcastTo S5000x40 (shapeCast S5000x1 (multiReduction .maximumf [1] S5000 z 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40)

/-- The body's stored value is those steps applied to its logits. -/
theorem pay_eq (x0 : Vec Ideal S5000x128 .f32) (x1 : Vec Ideal S40x128 .f32) (x2 : Vec Ideal S1x40 .f32) :
    k0_pay1 (F := Ideal) x0 x1 x2 = kTail (kLogits x0 x1 x2) := rfl

/-- The row maximum of a block, at row p: the fold of max from −∞ over the row's 40 entries. -/
theorem rowMax_block (z : FVec Ideal S5000x40 .f32) (p : Fin 5000) :
    multiReduction .maximumf [1] S5000 z 0xFF800000#32 reduces_S5000x40_S5000 (.inl rfl) rfl (ix1 p) = rowMax (fun j => z (ix2 p j)) := by
  refine (Ideal.multiReduction_maximumf_single z 0xFF800000#32 reduces_S5000x40_S5000 (.inl rfl) rfl (ix1 p)).trans ?_
  have hf : (z ∘ reduces_S5000x40_S5000.lift (ix1 p)) = fun k : Fin 40 => z (ix2 p k) :=
    funext fun k => congrArg z (lift_row reduces_S5000x40_S5000 p k)
  exact congrArg (fun f => Finset.fold max negInf f (Finset.univ : Finset (Fin 40))) hf

/-- The shifted block at (p, q): the entry minus its row's maximum. -/
theorem shifted_block (z : FVec Ideal S5000x40 .f32) (p : Fin 5000) (q : Fin 40) :
    subf z (broadcastTo S5000x40 (shapeCast S5000x1 (multiReduction .maximumf [1] S5000 z 0xFF800000#32 reduces_S5000x40_S5000 (.inl rfl) rfl) shapeCasts_S5000_S5000x1) broadcasts_S5000x1_S5000x40) (ix2 p q)
      = z (ix2 p q) - rowMax (fun j => z (ix2 p j)) := by
  rw [subf_apply]
  refine congrArg (z (ix2 p q) - ·) ?_
  exact (colBroadcast_apply _ broadcasts_S5000x1_S5000x40 p q).trans
    ((colCast_apply _ shapeCasts_S5000_S5000x1 p 0).trans (rowMax_block z p))

/-- Read at (p, q) those steps are the log-softmax of row p at class q. -/
theorem kTail_apply (z : FVec Ideal S5000x40 .f32) (p : Fin 5000) (q : Fin 40) :
    kTail z (ix2 p q) = logSoftmaxRow (fun j => z (ix2 p j)) q := by
  unfold kTail logSoftmaxRow
  rw [subf_apply]
  refine congrArg₂ (· - ·) (shifted_block z p q) ?_
  refine (colBroadcast_apply _ broadcasts_S5000x1_S5000x40 p q).trans ?_
  show Ideal.log (shapeCast S5000x1 _ shapeCasts_S5000_S5000x1 (ix2 p (0 : Fin 1))) = _
  refine congrArg Ideal.log ?_
  refine (colCast_apply _ shapeCasts_S5000_S5000x1 p 0).trans ?_
  refine (Ideal.multiReduction_add_single _ 0x00000000#32 reduces_S5000x40_S5000 (.inl rfl) rfl (ix1 p)).trans ?_
  refine Finset.sum_congr rfl fun k _ => ?_
  rw [lift_row reduces_S5000x40_S5000 p k]
  show Ideal.exp (subf z _ (ix2 p (⟨k.val, k.isLt⟩ : Fin 40))) = _
  exact congrArg Ideal.exp (shifted_block z p ⟨k.val, k.isLt⟩)

/-- The body's stored value at (p, q): log-softmax of the logits of row p, at class q. -/
theorem pay_apply (x0 : Vec Ideal S5000x128 .f32) (x1 : Vec Ideal S40x128 .f32) (x2 : Vec Ideal S1x40 .f32)
    (p : Fin 5000) (q : Fin 40) :
    k0_pay1 (F := Ideal) x0 x1 x2 (ix2 p q) = logSoftmaxRow (logit x0 x1 (fun j => x2 (ix2 (0 : Fin 1) j)) p) q := by
  rw [pay_eq, kTail_apply]
  exact congrArg (fun z => logSoftmaxRow z q) (funext fun j => kLogits_apply x0 x1 x2 p j)

end Cert.NodeClassifier.KernelRows

end
-- ==== Proof.KernelValue.lean ====
/-
  The kernel's result array as one function of the arrays its region finds.

  The region runs over ten grid points. Point t reads rows 5000 t … 5000 t + 4999 of the propagated features, the whole
  weight matrix and the whole bias row, and writes rows 5000 t … 5000 t + 4999 of the result. Each row of the result
  depends only on the same row of the features, so what point t writes is block t of ONE whole-array function:
  at (r, q) the log-softmax, at class q, of the logits of row r. Row r lies in the block of point r / 5000, and the ten
  blocks cover the array; so the array ends holding that function.
-/
import proofs.«169366_j16020228014933_1_alg».proof.Proof.Gen.KernelIdeal.Value
import proofs.«169366_j16020228014933_1_alg».proof.Proof.KernelRows
import Idealize.ShloMosaic.Lib.Pipeline.Value

noncomputable section

namespace Cert.NodeClassifier.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.NodeClassifier Cert.NodeClassifier.KernelRows

variable (m : (ℓ : Loc nD τ sig) → Buf (Elt Ideal) ℓ) (ρ : Dev nD → PrngReg)

theorem hz : (![0, 0] : Fin 2 → Nat) = fun _ => 0 := funext fun a => by fin_cases a <;> rfl

/-- The propagated features as the region finds them. -/
abbrev feats (c : Dev nD) : Vec Ideal S50000x128 .f32 := V m c (Pipeline.arrRef spec0 0)
/-- The class weights as the region finds them. -/
abbrev weights (c : Dev nD) : Vec Ideal S40x128 .f32 := V m c (Pipeline.arrRef spec0 1)
/-- The bias, as a row, as the region finds it. -/
abbrev biasRow (c : Dev nD) : Vec Ideal S1x40 .f32 := V m c (Pipeline.arrRef spec0 2)

/-- The whole result: at (r, q) the log-probability of class q for node r. -/
abbrev result (c : Dev nD) : Vec Ideal S50000x40 .f32 :=
  classLogProbs (feats m c) (weights m c) (fun j => biasRow m c (ix2 (0 : Fin 1) j))

/-- The block indices of the four windows at point t: features and result move down the rows with t, weights and bias
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Reading ANY array of the features' shape through point t's block of the first window: at (p, k) it is the array at
    row 5000 t + p. -/
theorem read_featsBlock (t : Fin cfg0.N) (X : ((cfg0.win 0).blk t).view.ty.Contents (Elt Ideal))
    (p : Fin 5000) (k : Fin 128) (r : Fin 50000) (hr : r.val = t.val * 5000 + p.val) :
    (((cfg0.win 0).blk t).view.read (Elt Ideal) X : Vec Ideal S5000x128 .f32) (ix2 p k) = (X : Vec Ideal S50000x128 .f32) (ix2 r k) := by
  obtain ⟨e0, e1, -⟩ := idx_facts t
  rw [View.read_apply]
  show X _ = X _
  refine congrArg X (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Reading ANY array of the weights' shape through a point's block of the second window gives the array back. -/
theorem read_weightsBlock (t : Fin cfg0.N) (X : ((cfg0.win 1).blk t).view.ty.Contents (Elt Ideal)) :
    (((cfg0.win 1).blk t).view.read (Elt Ideal) X : Vec Ideal S40x128 .f32) = (X : Vec Ideal S40x128 .f32) := by
  obtain ⟨-, -, e2, e3, -⟩ := idx_facts t
  funext y
  rw [View.read_apply]
  show X _ = X _
  refine congrArg X (funext fun a => Fin.ext ?_)
  match a with
  | ⟨0, _⟩ => show win0_1.index t (0 : Fin 2) * 40 + 1 * (y 0).val = (y 0).val; rw [e2]; omega
  | ⟨1, _⟩ => show win0_1.index t (1 : Fin 2) * 128 + 1 * (y 1).val = (y 1).val; rw [e3]; omega

/-- Reading ANY array of the bias row's shape through a point's block of the third window gives the array back. -/
theorem read_biasBlock (t : Fin cfg0.N) (X : ((cfg0.win 2).blk t).view.ty.Contents (Elt Ideal)) :
    (((cfg0.win 2).blk t).view.read (Elt Ideal) X : Vec Ideal S1x40 .f32) = (X : Vec Ideal S1x40 .f32) := by
  obtain ⟨-, -, -, -, e4, e5, -⟩ := idx_facts t
  funext y
  rw [View.read_apply]
  show X _ = X _
  refine congrArg X (funext fun a => Fin.ext ?_)
  match a with
  | ⟨0, _⟩ => show win0_2.index t (0 : Fin 2) * 1 + 1 * (y 0).val = (y 0).val; rw [e4]; omega
  | ⟨1, _⟩ => show win0_2.index t (1 : Fin 2) * 40 + 1 * (y 1).val = (y 1).val; rw [e5]; omega

/-- The features block of point t at (p, k) is the features at row 5000 t + p. -/
theorem featsBlock_apply (c : Dev nD) (t : Fin cfg0.N) (p : Fin 5000) (k : Fin 128) (r : Fin 50000)
    (hr : r.val = t.val * 5000 + p.val) :
    (iblk m c 0 t : Vec Ideal S5000x128 .f32) (ix2 p k) = feats m c (ix2 r k) :=
  read_featsBlock t (V m c (Pipeline.arrRef spec0 0)) p k r hr

/-- The weights block of every point is the whole weight matrix. -/
theorem weightsBlock_eq (c : Dev nD) (t : Fin cfg0.N) : (iblk m c 1 t : Vec Ideal S40x128 .f32) = weights m c :=
  read_weightsBlock t (V m c (Pipeline.arrRef spec0 1))

/-- The bias block of every point is the whole bias row. -/
theorem biasBlock_eq (c : Dev nD) (t : Fin cfg0.N) : (iblk m c 2 t : Vec Ideal S1x40 .f32) = biasRow m c :=
  read_biasBlock t (V m c (Pipeline.arrRef spec0 2))

/-- One entry of a block's stored value is the whole-array function at the matching entry, as soon as the block of
    features holds the matching rows and the other two blocks are the whole weights and bias. -/
theorem block_entry (H : Vec Ideal S50000x128 .f32) (W : Vec Ideal S40x128 .f32) (B : Vec Ideal S1x40 .f32)
    (x0 : Vec Ideal S5000x128 .f32) (x1 : Vec Ideal S40x128 .f32) (x2 : Vec Ideal S1x40 .f32)
    (y : S5000x40.Idx) (i : S50000x40.Idx)
    (h0 : ∀ (p : Fin 5000) (r : Fin 50000) (k : Fin 128), p.val = (y 0).val → r.val = (i 0).val → x0 (ix2 p k) = H (ix2 r k))
    (h1 : x1 = W) (h2 : x2 = B) (hi : (i 1).val = (y 1).val) :
    k0_pay1 (F := Ideal) x0 x1 x2 y = classLogProbs H W (fun j => B (ix2 (0 : Fin 1) j)) i := by
  obtain ⟨p, q, rfl⟩ : ∃ (p : Fin 5000) (q : Fin 40), y = ix2 p q := ⟨y 0, y 1, eq_ix2 y⟩
  obtain ⟨r, q', rfl⟩ : ∃ (r : Fin 50000) (q' : Fin 40), i = ix2 r q' := ⟨i 0, i 1, eq_ix2 i⟩
  have hq : q' = q := Fin.ext hi
  subst hq h1 h2
  rw [pay_apply]
  exact congrArg (fun z => logSoftmaxRow z q') (logit_congr x0 H x1 _ p r (fun k => h0 p r k rfl rfl))

/-- For ANY block value P and ANY array G of the result's shape: if P at every entry is G at the entry's place in point
    t's block of the result window, then P, as written back, is block t of G. -/
theorem cut_eq_read (t : Fin cfg0.N) (P : Vec Ideal S5000x40 .f32) (G : ((cfg0.win 3).blk t).view.ty.Contents (Elt Ideal))
    (h : ∀ y : S5000x40.Idx, P y = (G : Vec Ideal S50000x40 .f32) (((cfg0.win 3).blk t).view.emb y)) :
    (cfg0.win 3).cut (grid0.coords t) P = ((cfg0.win 3).blk t).view.read (Elt Ideal) G := by
  funext j
  rw [View.read_apply]
  exact h j

/-- What point t writes back is block t of the whole result. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S5000x128) hz, View.ld_unit_zero (S := S40x128) hz, View.ld_unit_zero (S := S1x40) hz]
  obtain ⟨-, -, -, -, -, -, e6, e7⟩ := idx_facts t
  refine cut_eq_read t (k0_pay1 (F := Ideal) (iblk m c 0 t) (iblk m c 1 t) (iblk m c 2 t)) (result m c) fun y => ?_
  refine block_entry (feats m c) (weights m c) (biasRow m c) (iblk m c 0 t) (iblk m c 1 t) (iblk m c 2 t) y
    (((cfg0.win 3).blk t).view.emb y) ?_ (weightsBlock_eq m c t) (biasBlock_eq m c t) ?_
  · intro p r k hp hr
    refine featsBlock_apply m c t p k r ?_
    have h0 : ((((cfg0.win 3).blk t).view.emb y) 0).val = win0_3.index t (0 : Fin 2) * 5000 + 1 * (y 0).val := rfl
    rw [hr, h0, e6, hp]; omega
  · show win0_3.index t (1 : Fin 2) * 40 + 1 * (y 1).val = (y 1).val
    rw [e7]; omega

/-- An index of the result array is in point t's block iff each coordinate is in the block's range on its axis. -/
theorem mem_blk (t : Fin cfg0.N) (i : S50000x40.Idx) :
    i ∈ ((cfg0.win 3).blk t).view.set ↔ ∀ a : Fin 2, win0_3.index t a * S5000x40.size a ≤ (i a).val ∧ (i a).val < win0_3.index t a * S5000x40.size a + S5000x40.size a := by
  show i ∈ ((View.whole main_v71).slice (win0_3.rect t)).set ↔ _
  rw [View.set_slice_whole, Rect.mem_set_unit]
  exact Iff.rfl

/-- The result array after the run is the whole result: row r is written by point r / 5000. -/
theorem final (c : Dev nD) : (dats m 0 c).arrAt 3 cfg0.N = result m c :=
  (dats m 0 c).arrAt_eq_of_cover 3 (result m c) (fun t _ => flushed_eq m c t) fun i => by
    have hi0 : (i 0).val < 50000 := (i 0).isLt
    have hi1 : (i 1).val < 40 := (i 1).isLt
    have ht : (i 0).val / 5000 < cfg0.N := by show (i 0).val / 5000 < 10; omega
    obtain ⟨-, -, -, -, -, -, e6, e7⟩ := idx_facts ⟨(i 0).val / 5000, ht⟩
    refine ⟨⟨(i 0).val / 5000, ht⟩, flush0_3 _, ?_⟩
    rw [mem_blk]
    intro a
    match a with
    | ⟨0, _⟩ =>
      show win0_3.index ⟨(i 0).val / 5000, ht⟩ (0 : Fin 2) * 5000 ≤ (i 0).val ∧ (i 0).val < win0_3.index ⟨(i 0).val / 5000, ht⟩ (0 : Fin 2) * 5000 + 5000
      rw [e6]; show (i 0).val / 5000 * 5000 ≤ (i 0).val ∧ (i 0).val < (i 0).val / 5000 * 5000 + 5000; omega
    | ⟨1, _⟩ =>
      show win0_3.index ⟨(i 0).val / 5000, ht⟩ (1 : Fin 2) * 40 ≤ (i 1).val ∧ (i 1).val < win0_3.index ⟨(i 0).val / 5000, ht⟩ (1 : Fin 2) * 40 + 40
      rw [e7]; omega

/-- The kernel's run, read: the result array at the whole result, the arguments unchanged. -/
theorem run : θ_run defs (onTc (τ := τ) (main (F := Ideal))) ⟨m, fun _ => 0, ρ⟩ fun r => ∀ c : Dev nD,
      r.2.mem ((c : Thread nD τ).loc main_v71) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.NodeClassifier.KernelValue

end
-- ==== Proof.ReferenceRows.lean ====
/-
  What the reference computes after its graph propagation, read at an entry (r, q).

  With h the propagated features (the reference's stage 'val_main_v69', left unopened here), the reference forms the
  logits h · Wᵀ + b — at (r, j) the inner product of row r of h with row j of W, plus b j — and applies log-softmax
  along the classes: the row maximum (a fold of max from −∞, joined once more with −∞, which changes nothing since
  −∞ is the bottom), the shift, the exponentials, their row sum from 0, its logarithm, the second shift. Read at
  (r, q) this is 'logSoftmaxRow' of the row of logits of node r, at class q — the same function the kernel's block
  computes row by row.
-/
import proofs.«169366_j16020228014933_1_alg».proof.Proof.ReferenceReadP
import proofs.«169366_j16020228014933_1_alg».proof.Proof.LogSoftmaxSpec
import proofs.«169366_j16020228014933_1_alg».proof.Proof.LibColumnLayout
import Idealize.ShloMosaic.Lib.ValueIdx
import Idealize.ShloMosaic.PureOps.Ideal.Laws

noncomputable section

namespace Cert.NodeClassifier.ReferenceRows

open Cert.ReferenceIdeal Cert.ReferenceIdeal.Gen Cert.ReferenceIdeal.ReadP Idealize.ShloMosaic Idealize.ShloMosaic.ValueIdx
open Cert.NodeClassifier Cert.ColumnLayout

variable (x0 : (⟨S50000x128, .f32⟩ : BufTy).Contents (Elt Ideal)) (x1 : (⟨S2x800000, .i32⟩ : BufTy).Contents (Elt Ideal))
  (x2 : (⟨S40x128, .f32⟩ : BufTy).Contents (Elt Ideal)) (x3 : (⟨S40, .f32⟩ : BufTy).Contents (Elt Ideal))

/-- The reference's logits at (r, j): the inner product of row r of the propagated features with row j of the weights,
    plus the bias at j. -/
theorem logits_apply (r : Fin 50000) (j : Fin 40) :
    val_main_v74 (F := Ideal) x0 x1 x2 x3 (ix2 r j)
      = logit (val_main_v69 (F := Ideal) x0 x1) x2 (fun j => x3 (ix1 j)) r j := by
  rw [val_main_v74_apply, val_main_v71_apply, val_main_v73_apply, val_main_v72_apply]
  unfold logit
  show _ + _ = _ + _
  refine congrArg₂ (· + ·) (Finset.sum_congr rfl fun k _ => ?_) ?_
  · rw [val_main_v70_apply]
    refine congrArg₂ (· * ·) (congrArg _ ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

/-- The host's reduction with a maximum body along the classes, started from −∞, of ANY [50000, 40] array: at row r the
    fold of max from −∞ over that row's 40 entries. -/
theorem hostRowMax (z : FVec Ideal S50000x40 .f32) (r : Fin 50000) :
    Host.reduce (FloatOps.maximumf (F := Ideal) (φ := .f32)) z (val_main_call1_cst (F := Ideal)) reducesTo_S50000x40_S50000_d1 h_S_ (ix1 r)
      = rowMax (fun j => z (ix2 r j)) := by
  have hred : S50000x40.Reduces [1] S50000 := by decide
  refine (Host.reduce_eq_fold_single (FloatOps.maximumf (F := Ideal) (φ := .f32)) z _ reducesTo_S50000x40_S50000_d1 hred h_S_ (ix1 r)).trans ?_
  have hf : (z ∘ hred.lift (ix1 r)) = fun k : Fin 40 => z (ix2 r k) :=
    funext fun k => congrArg z (lift_row hred r k)
  exact congrArg (fun f => Finset.fold max negInf f (Finset.univ : Finset (Fin 40))) hf

/-- The reference's row maximum at r: the fold of max from −∞ over the 40 logits of row r (the extra join with −∞
    drops out). -/
theorem rowMax_apply (r : Fin 50000) :
    val_main_call1_v2 (F := Ideal) x0 x1 x2 x3 (ix1 r)
      = rowMax (fun j => val_main_v74 (F := Ideal) x0 x1 x2 x3 (ix2 r j)) := by
  rw [val_main_call1_v2_apply, val_main_call1_v1_apply, val_main_call1_cst_0_apply]
  unfold val_main_call1_v0
  rw [hostRowMax (val_main_v74 (F := Ideal) x0 x1 x2 x3) r]
  generalize rowMax (fun j => val_main_v74 (F := Ideal) x0 x1 x2 x3 (ix2 r j)) = M
  exact max_negInf M

/-- The shifted logits at (r, q): the logit minus its row's maximum. -/
theorem shifted_apply (r : Fin 50000) (q : Fin 40) :
    val_main_call1_v5 (F := Ideal) x0 x1 x2 x3 (ix2 r q)
      = val_main_v74 (F := Ideal) x0 x1 x2 x3 (ix2 r q) - rowMax (fun j => val_main_v74 (F := Ideal) x0 x1 x2 x3 (ix2 r j)) := by
  have e : idx_main_call1_v3 (idx_main_call1_v4 (ix2 r q)) = ix1 r :=
    funext fun a => Fin.ext (by match a with | ⟨0, _⟩ => rfl)
  rw [val_main_call1_v5_apply, val_main_call1_v4_apply, val_main_call1_v3_apply, e, rowMax_apply x0 x1 x2 x3 r]
  generalize val_main_v74 (F := Ideal) x0 x1 x2 x3 (ix2 r q) = A
  generalize rowMax (fun j => val_main_v74 (F := Ideal) x0 x1 x2 x3 (ix2 r j)) = M
  rfl

/-- The reference's result at (r, q): log-softmax of row r of its logits, at class q. -/
theorem result_apply (r : Fin 50000) (q : Fin 40) :
    val_main_v75 (F := Ideal) x0 x1 x2 x3 (ix2 r q)
      = logSoftmaxRow (fun j => val_main_v74 (F := Ideal) x0 x1 x2 x3 (ix2 r j)) q := by
  have e : ∀ k : Fin 40, idx_main_call1_v7 (idx_main_call1_v8 (idx_main_call1_v10 (ix2 r q))) k = ix2 r k :=
    fun k => funext fun a => Fin.ext (by match a with | ⟨0, _⟩ => rfl | ⟨1, _⟩ => rfl)
  have hs : ∀ k : Fin 40, val_main_call1_v6 (F := Ideal) x0 x1 x2 x3 (idx_main_call1_v7 (idx_main_call1_v8 (idx_main_call1_v10 (ix2 r q))) k)
      = Ideal.exp (val_main_v74 (F := Ideal) x0 x1 x2 x3 (ix2 r k) - rowMax (fun j => val_main_v74 (F := Ideal) x0 x1 x2 x3 (ix2 r j))) := by
    intro k
    rw [e k, val_main_call1_v6_apply, shifted_apply x0 x1 x2 x3 r k]
    generalize val_main_v74 (F := Ideal) x0 x1 x2 x3 (ix2 r k) - rowMax (fun j => val_main_v74 (F := Ideal) x0 x1 x2 x3 (ix2 r j)) = S
    rfl
  rw [val_main_v75_apply, val_main_call1_v10_apply, val_main_call1_v9_apply, val_main_call1_v8_apply, val_main_call1_v7_apply,
    val_main_call1_cst_1_apply, shifted_apply x0 x1 x2 x3 r q, Finset.sum_congr rfl fun k _ => hs k]
  unfold logSoftmaxRow
  generalize rowMax (fun j => val_main_v74 (F := Ideal) x0 x1 x2 x3 (ix2 r j)) = M
  simp only [Ideal.subf_def, Ideal.hostUnary_log_def, Ideal.ofBits_def, Ideal.ofBits_zero_f32, zero_add]

/-- So the reference's result array is the one function of the propagated features, the weights and the bias. -/
theorem result_eq :
    val_main_v75 (F := Ideal) x0 x1 x2 x3 = classLogProbs (val_main_v69 (F := Ideal) x0 x1) x2 (fun j => x3 (ix1 j)) := by
  funext i
  obtain ⟨r, q, rfl⟩ : ∃ (r : Fin 50000) (q : Fin 40), i = ix2 r q := ⟨i 0, i 1, eq_ix2 i⟩
  rw [result_apply x0 x1 x2 x3 r q]
  have hz : (fun j => val_main_v74 (F := Ideal) x0 x1 x2 x3 (ix2 r j)) = logit (val_main_v69 (F := Ideal) x0 x1) x2 (fun j => x3 (ix1 j)) r :=
    funext fun j => logits_apply x0 x1 x2 x3 r j
  rw [hz]
  rfl

end Cert.NodeClassifier.ReferenceRows

end
-- ==== Proof.ReferenceRun.lean ====
/-
  The reference's run. The reference is a straight line of host operations, so every weakly fair execution
  terminates with each buffer at the fold of the operations' results over the launch contents. Read at the result
  buffer that fold is the last stage of the reference read one operation at a time — the log-softmax of the logits of
  the propagated features — as a function of the four arguments; read at an argument buffer it is the argument, which
  no operation writes.
  The line is read in three stretches. The first seven operations cut the edge list into its sources and targets and
  append the self loops to each (two concatenations). The next eighty are the degree count, the normalisation and the
  three propagation rounds, from ANY contents that hold those two index vectors, ending in the propagated features. The
  last twenty are the linear layer and log-softmax, from ANY contents that hold the propagated features. A called
  function's operations carry their values through transports along an equality of buffer types that is the identity:
  in the second stretch (the one selection of the degree normalisation) they are rewritten away; the last stretch is
  written without them, and the cut line is the printed line.
-/
import proofs.«169366_j16020228014933_1_alg».proof.Proof.ReferenceReadP
import Idealize.ShloMosaic.Lib.StableHlo.Run
import Idealize.ShloMosaic.Lib.Pipeline.Frame

noncomputable section

namespace Cert.NodeClassifier.ReferenceRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 40000000 in
/-- Every weakly fair execution of the reference terminates with every buffer at the fold of the operations' results. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The line in three stretches -/

/-- The first seven operations: sources, targets, the node numbers, and the two index vectors with the self loops appended. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

set_option maxHeartbeats 4000000 in
/-- The next eighty: the degree count, the normalisation, three rounds of gather, scale and scatter-add. -/
abbrev opsB : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    unary main_cst_2 main_v14 (broadcastInDim S50000 ![] bcast_S_S50000 : (⟨S_, .f32⟩ : BufTy).Contents (Elt F) → (⟨S50000, .f32⟩ : BufTy).Contents (Elt F)),
    TRef.ternary (TRef.of (T := ⟨S50000, .i1⟩) main_v12) (TRef.of (T := ⟨S50000, .f32⟩) main_v13) (TRef.of (T := ⟨S50000, .f32⟩) main_v14) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    unary main_v30 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v5 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v5 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v5 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_arg0 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x128 ![0, 1] bcast_S850000x1_S850000x128_0_1 : (⟨S850000x1, .f32⟩ : BufTy).Contents (Elt F) → (⟨S850000x128, .f32⟩ : BufTy).Contents (Elt F)),
    binary main_v39 main_v38 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v30 main_v44 (broadcastInDim S850000x1 ![0] bcast_S850000_S850000x1_0 : (⟨S850000, .f32⟩ : BufTy).Contents (Elt F) → (⟨S850000x1, .f32⟩ : BufTy).Contents (Elt F)),
    nullary main_c_9 (constantI S_ 32 0#32),
    unary main_c_9 main_v45 (broadcastInDim S850000 ![] bcast_S_S850000 : (⟨S_, .i32⟩ : BufTy).Contents (Elt F) → (⟨S850000, .i32⟩ : BufTy).Contents (Elt F)),
    binary main_v5 main_v45 main_v46 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v47 (broadcastInDim S850000 ![] bcast_S_S850000 : (⟨S_, .i32⟩ : BufTy).Contents (Elt F) → (⟨S850000, .i32⟩ : BufTy).Contents (Elt F)),
    binary main_v5 main_v47 main_v48 (addi : (⟨S850000, .i32⟩ : BufTy).Contents (Elt F) → (⟨S850000, .i32⟩ : BufTy).Contents (Elt F) → (⟨S850000, .i32⟩ : BufTy).Contents (Elt F)),
    ternary main_v46 main_v48 main_v5 main_v49 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v49 main_v50 (broadcastInDim S850000x1 ![0] bcast_S850000_S850000x1_0 : (⟨S850000, .i32⟩ : BufTy).Contents (Elt F) → (⟨S850000x1, .i32⟩ : BufTy).Contents (Elt F)),
    binary main_v43 main_v50 main_v51 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v44 main_v52 (broadcastInDim S850000x128 ![0, 1] bcast_S850000x1_S850000x128_0_1 : (⟨S850000x1, .f32⟩ : BufTy).Contents (Elt F) → (⟨S850000x128, .f32⟩ : BufTy).Contents (Elt F)),
    binary main_v52 main_v51 main_v53 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v54 (broadcastInDim S50000x128 ![] bcast_S_S50000x128 : (⟨S_, .f32⟩ : BufTy).Contents (Elt F) → (⟨S50000x128, .f32⟩ : BufTy).Contents (Elt F)),
    unary main_v6 main_v55 (broadcastInDim S850000x1 ![0] bcast_S850000_S850000x1_0 : (⟨S850000, .i32⟩ : BufTy).Contents (Elt F) → (⟨S850000x1, .i32⟩ : BufTy).Contents (Elt F)),
    ternary main_v54 main_v55 main_v53 main_v56 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v30 main_v57 (broadcastInDim S850000x1 ![0] bcast_S850000_S850000x1_0 : (⟨S850000, .f32⟩ : BufTy).Contents (Elt F) → (⟨S850000x1, .f32⟩ : BufTy).Contents (Elt F)),
    nullary main_c_12 (constantI S_ 32 0#32),
    unary main_c_12 main_v58 (broadcastInDim S850000 ![] bcast_S_S850000 : (⟨S_, .i32⟩ : BufTy).Contents (Elt F) → (⟨S850000, .i32⟩ : BufTy).Contents (Elt F)),
    binary main_v5 main_v58 main_v59 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v60 (broadcastInDim S850000 ![] bcast_S_S850000 : (⟨S_, .i32⟩ : BufTy).Contents (Elt F) → (⟨S850000, .i32⟩ : BufTy).Contents (Elt F)),
    binary main_v5 main_v60 main_v61 (addi : (⟨S850000, .i32⟩ : BufTy).Contents (Elt F) → (⟨S850000, .i32⟩ : BufTy).Contents (Elt F) → (⟨S850000, .i32⟩ : BufTy).Contents (Elt F)),
    ternary main_v59 main_v61 main_v5 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v62 main_v63 (broadcastInDim S850000x1 ![0] bcast_S850000_S850000x1_0 : (⟨S850000, .i32⟩ : BufTy).Contents (Elt F) → (⟨S850000x1, .i32⟩ : BufTy).Contents (Elt F)),
    binary main_v56 main_v63 main_v64 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v57 main_v65 (broadcastInDim S850000x128 ![0, 1] bcast_S850000x1_S850000x128_0_1 : (⟨S850000x1, .f32⟩ : BufTy).Contents (Elt F) → (⟨S850000x128, .f32⟩ : BufTy).Contents (Elt F)),
    binary main_v65 main_v64 main_v66 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v67 (broadcastInDim S50000x128 ![] bcast_S_S50000x128 : (⟨S_, .f32⟩ : BufTy).Contents (Elt F) → (⟨S50000x128, .f32⟩ : BufTy).Contents (Elt F)),
    unary main_v6 main_v68 (broadcastInDim S850000x1 ![0] bcast_S850000_S850000x1_0 : (⟨S850000, .i32⟩ : BufTy).Contents (Elt F) → (⟨S850000x1, .i32⟩ : BufTy).Contents (Elt F)),
    ternary main_v67 main_v68 main_v66 main_v69 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

set_option maxHeartbeats 4000000 in
/-- The last twenty: the linear layer and log-softmax along the classes. (The sixteen operations of the called log-softmax
    function are written here with the plain builders at their buffers; the printed ones transport their values along an
    equality of buffer types that is the identity, so the two lists are the same list.) -/
abbrev opsC : List (HloOp τ sig (Elt F)) :=
  [ unary main_arg2 main_v70 ((transpose S128x40 [1, 0] · transposes_S40x128_S128x40_1_0) : (⟨S40x128, .f32⟩ : BufTy).Contents (Elt F) → (⟨S128x40, .f32⟩ : BufTy).Contents (Elt F)),
    binary main_v69 main_v70 main_v71 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg3 main_v72 (broadcastInDim S1x40 ![1] bcast_S40_S1x40_1 : (⟨S40, .f32⟩ : BufTy).Contents (Elt F) → (⟨S1x40, .f32⟩ : BufTy).Contents (Elt F)),
    unary main_v72 main_v73 (broadcastInDim S50000x40 ![0, 1] bcast_S1x40_S50000x40_0_1 : (⟨S1x40, .f32⟩ : BufTy).Contents (Elt F) → (⟨S50000x40, .f32⟩ : BufTy).Contents (Elt F)),
    binary main_v71 main_v73 main_v74 (addf : (⟨S50000x40, .f32⟩ : BufTy).Contents (Elt F) → (⟨S50000x40, .f32⟩ : BufTy).Contents (Elt F) → (⟨S50000x40, .f32⟩ : BufTy).Contents (Elt F)),
    nullary main_call1_cst ((constant S_ .f32 0xFF800000#32)),
    binary main_v74 main_call1_cst main_call1_v0 (((fun x v => Host.reduce FloatOps.maximumf x v reducesTo_S50000x40_S50000_d1 h_S_)) : (⟨S50000x40, .f32⟩ : BufTy).Contents (Elt F) → (⟨S_, .f32⟩ : BufTy).Contents (Elt F) → (⟨S50000, .f32⟩ : BufTy).Contents (Elt F)),
    nullary main_call1_cst_0 ((constant S_ .f32 0xFF800000#32)),
    unary main_call1_cst_0 main_call1_v1 (((broadcastInDim S50000 ![] bcast_S_S50000)) : (⟨S_, .f32⟩ : BufTy).Contents (Elt F) → (⟨S50000, .f32⟩ : BufTy).Contents (Elt F)),
    binary main_call1_v1 main_call1_v0 main_call1_v2 ((maximumf) : (⟨S50000, .f32⟩ : BufTy).Contents (Elt F) → (⟨S50000, .f32⟩ : BufTy).Contents (Elt F) → (⟨S50000, .f32⟩ : BufTy).Contents (Elt F)),
    unary main_call1_v2 main_call1_v3 (((broadcastInDim S50000x1 ![0] bcast_S50000_S50000x1_0)) : (⟨S50000, .f32⟩ : BufTy).Contents (Elt F) → (⟨S50000x1, .f32⟩ : BufTy).Contents (Elt F)),
    unary main_call1_v3 main_call1_v4 (((broadcastInDim S50000x40 ![0, 1] bcast_S50000x1_S50000x40_0_1)) : (⟨S50000x1, .f32⟩ : BufTy).Contents (Elt F) → (⟨S50000x40, .f32⟩ : BufTy).Contents (Elt F)),
    binary main_v74 main_call1_v4 main_call1_v5 ((subf) : (⟨S50000x40, .f32⟩ : BufTy).Contents (Elt F) → (⟨S50000x40, .f32⟩ : BufTy).Contents (Elt F) → (⟨S50000x40, .f32⟩ : BufTy).Contents (Elt F)),
    unary main_call1_v5 main_call1_v6 ((Host.exp) : (⟨S50000x40, .f32⟩ : BufTy).Contents (Elt F) → (⟨S50000x40, .f32⟩ : BufTy).Contents (Elt F)),
    nullary main_call1_cst_1 ((constant S_ .f32 0x00000000#32)),
    binary main_call1_v6 main_call1_cst_1 main_call1_v7 (((fun x v => Host.reduceAdd x v reducesTo_S50000x40_S50000_d1 h_S_)) : (⟨S50000x40, .f32⟩ : BufTy).Contents (Elt F) → (⟨S_, .f32⟩ : BufTy).Contents (Elt F) → (⟨S50000, .f32⟩ : BufTy).Contents (Elt F)),
    unary main_call1_v7 main_call1_v8 (((broadcastInDim S50000x1 ![0] bcast_S50000_S50000x1_0)) : (⟨S50000, .f32⟩ : BufTy).Contents (Elt F) → (⟨S50000x1, .f32⟩ : BufTy).Contents (Elt F)),
    unary main_call1_v8 main_call1_v9 ((Host.log) : (⟨S50000x1, .f32⟩ : BufTy).Contents (Elt F) → (⟨S50000x1, .f32⟩ : BufTy).Contents (Elt F)),
    unary main_call1_v9 main_call1_v10 (((broadcastInDim S50000x40 ![0, 1] bcast_S50000x1_S50000x40_0_1)) : (⟨S50000x1, .f32⟩ : BufTy).Contents (Elt F) → (⟨S50000x40, .f32⟩ : BufTy).Contents (Elt F)),
    binary main_call1_v5 main_call1_v10 main_v75 ((subf) : (⟨S50000x40, .f32⟩ : BufTy).Contents (Elt F) → (⟨S50000x40, .f32⟩ : BufTy).Contents (Elt F) → (⟨S50000x40, .f32⟩ : BufTy).Contents (Elt F)) ]

attribute [local irreducible] Host.reduce Host.reduceAdd Host.exp Host.log broadcastInDim constant maximumf subf in
set_option maxRecDepth 8192 in
set_option maxHeartbeats 4000000 in
/-- The line is the three stretches one after the other. -/
theorem ops_split : (ops : List (HloOp τ sig (Elt F))) = opsA ++ (opsB ++ opsC) := rfl

/-! ## The first stretch -/

variable (V : Valuation τ sig (Elt F))

theorem stretchA_sources : after opsA V (Proc.devRef .tc main_v5) = ReadP.val_main_v5 (F := F) (V (Proc.devRef .tc main_arg1)) := by
  after_results
  simp only [ReadP.val_main_v0, ReadP.val_main_v1, ReadP.val_main_v2, ReadP.val_main_v3, ReadP.val_main_v4, ReadP.val_main_v5, ReadP.val_main_v6]
  rfl

theorem stretchA_targets : after opsA V (Proc.devRef .tc main_v6) = ReadP.val_main_v6 (F := F) (V (Proc.devRef .tc main_arg1)) := by
  after_results
  simp only [ReadP.val_main_v0, ReadP.val_main_v1, ReadP.val_main_v2, ReadP.val_main_v3, ReadP.val_main_v4, ReadP.val_main_v5, ReadP.val_main_v6]
  rfl

theorem stretchA_arg0 : after opsA V (Proc.devRef .tc main_arg0) = V (Proc.devRef .tc main_arg0) := by
  after_results
theorem stretchA_arg2 : after opsA V (Proc.devRef .tc main_arg2) = V (Proc.devRef .tc main_arg2) := by
  after_results
theorem stretchA_arg3 : after opsA V (Proc.devRef .tc main_arg3) = V (Proc.devRef .tc main_arg3) := by
  after_results

/-! ## The second stretch, from any contents holding the two index vectors -/

set_option maxRecDepth 65536 in
set_option maxHeartbeats 40000000 in
theorem stretchB_feats (x0 : (⟨S50000x128, .f32⟩ : BufTy).Contents (Elt F)) (x1 : (⟨S2x800000, .i32⟩ : BufTy).Contents (Elt F))
    (h0 : V (Proc.devRef .tc main_arg0) = x0)
    (h5 : V (Proc.devRef .tc main_v5) = ReadP.val_main_v5 (F := F) x1)
    (h6 : V (Proc.devRef .tc main_v6) = ReadP.val_main_v6 (F := F) x1) :
    after opsB V (Proc.devRef .tc main_v69) = ReadP.val_main_v69 (F := F) x0 x1 := by
  after_results_simp
  simp only [TRef.ofBuf, TRef.toBuf, cast_eq]
  simp only [h0, h5, h6]
  simp only [ReadP.val_main_cst, ReadP.val_main_v7, ReadP.val_main_cst_0, ReadP.val_main_v8, ReadP.val_main_v9, ReadP.val_main_v10, ReadP.val_main_cst_1, ReadP.val_main_v11, ReadP.val_main_v12, ReadP.val_main_v13, ReadP.val_main_cst_2, ReadP.val_main_v14, ReadP.val_main_v15, ReadP.val_main_c, ReadP.val_main_v16, ReadP.val_main_v17, ReadP.val_main_c_3, ReadP.val_main_v18, ReadP.val_main_v19, ReadP.val_main_v20, ReadP.val_main_v21, ReadP.val_main_v22, ReadP.val_main_c_4, ReadP.val_main_v23, ReadP.val_main_v24, ReadP.val_main_c_5, ReadP.val_main_v25, ReadP.val_main_v26, ReadP.val_main_v27, ReadP.val_main_v28, ReadP.val_main_v29, ReadP.val_main_v30, ReadP.val_main_v31, ReadP.val_main_c_6, ReadP.val_main_v32, ReadP.val_main_v33, ReadP.val_main_c_7, ReadP.val_main_v34, ReadP.val_main_v35, ReadP.val_main_v36, ReadP.val_main_v37, ReadP.val_main_v38, ReadP.val_main_v39, ReadP.val_main_v40, ReadP.val_main_cst_8, ReadP.val_main_v41, ReadP.val_main_v42, ReadP.val_main_v43, ReadP.val_main_v44, ReadP.val_main_c_9, ReadP.val_main_v45, ReadP.val_main_v46, ReadP.val_main_c_10, ReadP.val_main_v47, ReadP.val_main_v48, ReadP.val_main_v49, ReadP.val_main_v50, ReadP.val_main_v51, ReadP.val_main_v52, ReadP.val_main_v53, ReadP.val_main_cst_11, ReadP.val_main_v54, ReadP.val_main_v55, ReadP.val_main_v56, ReadP.val_main_v57, ReadP.val_main_c_12, ReadP.val_main_v58, ReadP.val_main_v59, ReadP.val_main_c_13, ReadP.val_main_v60, ReadP.val_main_v61, ReadP.val_main_v62, ReadP.val_main_v63, ReadP.val_main_v64, ReadP.val_main_v65, ReadP.val_main_v66, ReadP.val_main_cst_14, ReadP.val_main_v67, ReadP.val_main_v68, ReadP.val_main_v69]

set_option maxRecDepth 8192 in
set_option maxHeartbeats 40000000 in
theorem stretchB_arg2 : after opsB V (Proc.devRef .tc main_arg2) = V (Proc.devRef .tc main_arg2) := by
  after_results_simp <;> rfl
set_option maxRecDepth 8192 in
set_option maxHeartbeats 40000000 in
theorem stretchB_arg3 : after opsB V (Proc.devRef .tc main_arg3) = V (Proc.devRef .tc main_arg3) := by
  after_results_simp <;> rfl

/-! ## The third stretch, from any contents holding the propagated features -/

set_option maxRecDepth 65536 in
set_option maxHeartbeats 40000000 in
theorem stretchC_result (x0 : (⟨S50000x128, .f32⟩ : BufTy).Contents (Elt F)) (x1 : (⟨S2x800000, .i32⟩ : BufTy).Contents (Elt F))
    (x2 : (⟨S40x128, .f32⟩ : BufTy).Contents (Elt F)) (x3 : (⟨S40, .f32⟩ : BufTy).Contents (Elt F))
    (h69 : V (Proc.devRef .tc main_v69) = ReadP.val_main_v69 (F := F) x0 x1)
    (h2 : V (Proc.devRef .tc main_arg2) = x2) (h3 : V (Proc.devRef .tc main_arg3) = x3) :
    after opsC V (Proc.devRef .tc main_v75) = ReadP.val_main_v75 (F := F) x0 x1 x2 x3 := by
  after_results_simp
  simp only [h69, h2, h3]
  simp only [ReadP.val_main_v70, ReadP.val_main_v71, ReadP.val_main_v72, ReadP.val_main_v73, ReadP.val_main_v74, ReadP.val_main_call1_cst, ReadP.val_main_call1_v0, ReadP.val_main_call1_cst_0, ReadP.val_main_call1_v1, ReadP.val_main_call1_v2, ReadP.val_main_call1_v3, ReadP.val_main_call1_v4, ReadP.val_main_call1_v5, ReadP.val_main_call1_v6, ReadP.val_main_call1_cst_1, ReadP.val_main_call1_v7, ReadP.val_main_call1_v8, ReadP.val_main_call1_v9, ReadP.val_main_call1_v10, ReadP.val_main_v75]

/-! ## The whole line -/

/-- The fold at the result buffer is the reference's last stage of the four arguments. -/
theorem fold_result (m : (ℓ : Loc nD τ sig) → Buf (Elt F) ℓ) (c : Dev nD) :
    after ops (launchContents m c) (Proc.devRef .tc main_v75)
      = ReadP.val_main_v75 (F := F) (m ((c.tc : Thread nD τ).loc main_arg0)) (m ((c.tc : Thread nD τ).loc main_arg1)) (m ((c.tc : Thread nD τ).loc main_arg2)) (m ((c.tc : Thread nD τ).loc main_arg3)) := by
  rw [ops_split, StableHlo.after_append, StableHlo.after_append]
  refine stretchC_result (after opsB (after opsA (launchContents m c))) _ _ _ _ ?_ ?_ ?_
  · exact stretchB_feats (after opsA (launchContents m c)) _ _ (stretchA_arg0 (launchContents m c))
      (stretchA_sources (launchContents m c)) (stretchA_targets (launchContents m c))
  · exact (stretchB_arg2 (after opsA (launchContents m c))).trans (stretchA_arg2 (launchContents m c))
  · exact (stretchB_arg3 (after opsA (launchContents m c))).trans (stretchA_arg3 (launchContents m c))

set_option maxRecDepth 8192 in
set_option maxHeartbeats 40000000 in
theorem fold_arg0 (m : (ℓ : Loc nD τ sig) → Buf (Elt F) ℓ) (c : Dev nD) :
    after ops (launchContents m c) (Proc.devRef .tc main_arg0) = m ((c.tc : Thread nD τ).loc main_arg0) := by
  after_results_simp <;> rfl
set_option maxRecDepth 8192 in
set_option maxHeartbeats 40000000 in
theorem fold_arg1 (m : (ℓ : Loc nD τ sig) → Buf (Elt F) ℓ) (c : Dev nD) :
    after ops (launchContents m c) (Proc.devRef .tc main_arg1) = m ((c.tc : Thread nD τ).loc main_arg1) := by
  after_results_simp <;> rfl
set_option maxRecDepth 8192 in
set_option maxHeartbeats 40000000 in
theorem fold_arg2 (m : (ℓ : Loc nD τ sig) → Buf (Elt F) ℓ) (c : Dev nD) :
    after ops (launchContents m c) (Proc.devRef .tc main_arg2) = m ((c.tc : Thread nD τ).loc main_arg2) := by
  after_results_simp <;> rfl
set_option maxRecDepth 8192 in
set_option maxHeartbeats 40000000 in
theorem fold_arg3 (m : (ℓ : Loc nD τ sig) → Buf (Elt F) ℓ) (c : Dev nD) :
    after ops (launchContents m c) (Proc.devRef .tc main_arg3) = m ((c.tc : Thread nD τ).loc main_arg3) := by
  after_results_simp <;> rfl

/-- The reference's run, read: the result buffer at the last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
        = ReadP.val_main_v75 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v75).trans (fold_result m c),
      (h c main_arg0).trans (fold_arg0 m c),
      (h c main_arg1).trans (fold_arg1 m c),
      (h c main_arg2).trans (fold_arg2 m c),
      (h c main_arg3).trans (fold_arg3 m c)⟩)
    (run_fold m ρ)

end Cert.NodeClassifier.ReferenceRun

end
-- ==== Proof.HostPrefix.lean ====
/-
  The kernel program and the reference run the SAME graph propagation on the host before they part: the same slices
  of the edge list, the same self loops appended, the same degree count, the same symmetric normalisation, the same three
  rounds of gather, scale and scatter-add. Operation for operation the two printed programs agree up to the propagated
  features, so the array the kernel's region finds as its first operand is the reference's stage for those features,
  as a function of the two arguments it depends on (the node features and the edge list). The kernel's third operand is
  the bias seen as one row.
  Stated for any float family: nothing here depends on what a float is.
-/
import proofs.«169366_j16020228014933_1_alg».proof.Proof.Gen.KernelIdeal.Frame
import proofs.«169366_j16020228014933_1_alg».proof.Proof.ReferenceReadP
import Idealize.ShloMosaic.Lib.StableHlo.Run

noncomputable section

namespace Cert.NodeClassifier.HostPrefix

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxRecDepth 65536 in
set_option maxHeartbeats 40000000 in
/-- The propagated features the region finds are the reference's propagated features of the same arguments. -/
theorem feats_eq (c : Dev nD) :
    V m c main_v69 = Cert.ReferenceIdeal.ReadP.val_main_v69 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.ofBuf, TRef.toBuf, cast_eq]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_cst_2, Cert.ReferenceIdeal.ReadP.val_main_v14, Cert.ReferenceIdeal.ReadP.val_main_v15, Cert.ReferenceIdeal.ReadP.val_main_c, Cert.ReferenceIdeal.ReadP.val_main_v16, Cert.ReferenceIdeal.ReadP.val_main_v17, Cert.ReferenceIdeal.ReadP.val_main_c_3, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_4, Cert.ReferenceIdeal.ReadP.val_main_v23, Cert.ReferenceIdeal.ReadP.val_main_v24, Cert.ReferenceIdeal.ReadP.val_main_c_5, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_c_6, Cert.ReferenceIdeal.ReadP.val_main_v32, Cert.ReferenceIdeal.ReadP.val_main_v33, Cert.ReferenceIdeal.ReadP.val_main_c_7, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_cst_8, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_c_9, Cert.ReferenceIdeal.ReadP.val_main_v45, Cert.ReferenceIdeal.ReadP.val_main_v46, Cert.ReferenceIdeal.ReadP.val_main_c_10, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_cst_11, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_c_12, Cert.ReferenceIdeal.ReadP.val_main_v58, Cert.ReferenceIdeal.ReadP.val_main_v59, Cert.ReferenceIdeal.ReadP.val_main_c_13, Cert.ReferenceIdeal.ReadP.val_main_v60, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_cst_14, Cert.ReferenceIdeal.ReadP.val_main_v67, Cert.ReferenceIdeal.ReadP.val_main_v68, Cert.ReferenceIdeal.ReadP.val_main_v69]
  rfl

set_option maxRecDepth 65536 in
set_option maxHeartbeats 40000000 in
/-- The bias row the region finds is the bias argument seen as a [1, 40] array. -/
theorem biasRow_eq (c : Dev nD) :
    V m c main_v70 = shapeCast S1x40 (m ((c : Thread nD τ).loc main_arg3)) shapeCasts_S40_S1x40 := by
  dsimp only [V]
  simp only [hostOps0, hostOps0_1, hostOps0_2, List.flatten_cons, List.flatten_nil, List.append_nil, List.cons_append, List.nil_append]
  after_results_simp
  rfl

end Cert.NodeClassifier.HostPrefix

end
-- ==== Proof.lean ====
/-
  A node classifier on a graph: three rounds of normalised neighbourhood averaging of the node features (gather the
  source rows, scale by the symmetric degree normalisation, scatter-add into the target rows, self loops included),
  then a linear layer into 40 classes and log-softmax along the classes.

  The kernel program and the reference run the SAME propagation as host operations, operation for operation; they
  part only at the last step. The reference forms the logits h · Wᵀ + b of all 50000 nodes at once and applies
  log-softmax. The kernel program hands the propagated features h to one region of ten grid points; point t takes
  rows 5000 t … 5000 t + 4999 of h, multiplies by Wᵀ (after narrowing both operands, which is the identity on the
  extended reals), adds the bias row, and applies the same shifted log-softmax to its 5000 rows.

  Both results are ONE function of h, W and b: at (r, q),
      (z r q − M r) − log (∑ j, exp (z r j − M r)),   z r j = (∑ k, h r k · W j k) + b j,   M r = max over j of z r j
  with the maximum folded from −∞. The kernel's side: each block's stored value read at an entry (KernelRows), the
  ten blocks tile the result (KernelValue). The reference's side: its stages read at an entry (ReferenceRows; the
  reference joins its row maximum once more with −∞, the bottom, which changes nothing), over its run
  (ReferenceRun). The features the region finds ARE the reference's propagated features of the same arguments
  (HostPrefix). No law that needs finiteness is used: the two sides apply the same operations to the same numbers
  in the same grouping, except for the order of the terms of the sums, which the extended reals do not see.
  The narrowing of formats is not a ledger entry here: the idealized kernel keeps the narrowing operations, which are
  the identity at the ideal instance, so the preserved-idealization conjunct is trivial.
-/
import proofs.«169366_j16020228014933_1_alg».proof.Defs
import proofs.«169366_j16020228014933_1_alg».proof.Proof.Gen.Kernel
import proofs.«169366_j16020228014933_1_alg».proof.Proof.Gen.Kernel.Skeleton
import proofs.«169366_j16020228014933_1_alg».proof.Proof.Gen.Kernel.Launch
import proofs.«169366_j16020228014933_1_alg».proof.Proof.Gen.Kernel.Points
import proofs.«169366_j16020228014933_1_alg».proof.Proof.Gen.Kernel.Frame
import proofs.«169366_j16020228014933_1_alg».proof.Proof.Gen.KernelIdeal
import proofs.«169366_j16020228014933_1_alg».proof.Proof.Gen.KernelIdeal.Skeleton
import proofs.«169366_j16020228014933_1_alg».proof.Proof.Gen.KernelIdeal.Launch
import proofs.«169366_j16020228014933_1_alg».proof.Proof.Gen.KernelIdeal.Points
import proofs.«169366_j16020228014933_1_alg».proof.Proof.Gen.KernelIdeal.Frame
import proofs.«169366_j16020228014933_1_alg».proof.Proof.Gen.ReferenceIdeal
import proofs.«169366_j16020228014933_1_alg».proof.Proof.Gen.Pre_finite_inputs
import proofs.«169366_j16020228014933_1_alg».proof.Proof.Gen.KernelIdeal.Value
import proofs.«169366_j16020228014933_1_alg».proof.Proof.ReferenceRunP
import proofs.«169366_j16020228014933_1_alg».proof.Proof.ReferenceReadP
import proofs.«169366_j16020228014933_1_alg».proof.Proof.KernelValue
import proofs.«169366_j16020228014933_1_alg».proof.Proof.ReferenceRows
import proofs.«169366_j16020228014933_1_alg».proof.Proof.ReferenceRun
import proofs.«169366_j16020228014933_1_alg».proof.Proof.HostPrefix
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx
open Cert.NodeClassifier

/-- The kernel program at the word level runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (ReferenceRun.run (F := Ideal) m ρ)

/-- The kernel's whole result is the one function of the reference's propagated features, the weights and the bias:
    the features the region finds are the reference's, the weights are the argument, and the bias row at (0, j) is
    the bias at j. -/
theorem result_agree (m : (ℓ : Loc Cert.KernelIdeal.nD Cert.KernelIdeal.τ Cert.KernelIdeal.sig) → Buf (Elt Ideal) ℓ)
    (c : Dev Cert.KernelIdeal.nD) :
    KernelValue.result m c
      = classLogProbs
          (Cert.ReferenceIdeal.ReadP.val_main_v69 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (fun j => m ((c.tc : Thread Cert.KernelIdeal.nD Cert.KernelIdeal.τ).loc Cert.KernelIdeal.main_arg3) (ix1 j)) := by
  have h0 : KernelValue.feats m c
      = Cert.ReferenceIdeal.ReadP.val_main_v69 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    HostPrefix.feats_eq m c
  have h1 : KernelValue.weights m c = m ((c.tc : Thread Cert.KernelIdeal.nD Cert.KernelIdeal.τ).loc Cert.KernelIdeal.main_arg2) :=
    Cert.KernelIdeal.Gen.V_main_arg2 m c
  have h2 : (fun j : Fin 40 => KernelValue.biasRow m c (ix2 (0 : Fin 1) j))
      = fun j => m ((c.tc : Thread Cert.KernelIdeal.nD Cert.KernelIdeal.τ).loc Cert.KernelIdeal.main_arg3) (ix1 j) := by
    funext j
    have hb : KernelValue.biasRow m c
        = shapeCast Cert.KernelIdeal.S1x40 (m ((c.tc : Thread Cert.KernelIdeal.nD Cert.KernelIdeal.τ).loc Cert.KernelIdeal.main_arg3))
            Cert.KernelIdeal.Facts₀.shapeCasts_S40_S1x40 :=
      HostPrefix.biasRow_eq m c
    rw [hb]
    exact shapeCast_a_1a_apply _ _ 0 j
  show classLogProbs (KernelValue.feats m c) (KernelValue.weights m c) (fun j => KernelValue.biasRow m c (ix2 (0 : Fin 1) j)) = _
  rw [h0, h1, h2]

/-- The idealization rewrote nothing. -/
theorem preserves : Cert.preserves_Kernel_KernelIdeal := trivial

/-- From memories agreeing on the arguments the two idealized programs end with the same result: the kernel's array is
    the one function of the region's arrays (its run, read), the reference's the same function of its stages (its run,
    read), and the two meet by 'result_agree'. -/
theorem algebraic : Cert.algebraic_KernelIdeal_ReferenceIdeal := by
  intro m ρ m' ρ' _ hagree
  refine ⟨fun c => KernelValue.result m c, KernelValue.run m ρ, ?_⟩
  refine (θ_run Cert.ReferenceIdeal.defs _ _).mono (fun _ h c => ⟨(h c).1.trans ?_, (h c).2⟩)
    (ReferenceRun.run (F := Ideal) m' ρ')
  rw [(hagree c).1, (hagree c).2.1, (hagree c).2.2.1, (hagree c).2.2.2, ReferenceRows.result_eq]
  exact (result_agree m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
